-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x16384 : Shape := ⟨3, ![8, 64, 16384]⟩
abbrev S64x80 : Shape := ⟨2, ![64, 80]⟩
abbrev S_ : Shape := ⟨0, ![]⟩

class Facts : Prop where
  bcast_S_S8x64x16384 : S_.BroadcastsInDim S8x64x16384 (![] : Fin 0 → Fin S8x64x16384.rank)
  reducesTo_S8x64x16384_S_d0_1_2 : S8x64x16384.ReducesTo [0, 1, 2] S_
  h_S_ : 0 < S_.numel
  bcast_S_S64x80 : S_.BroadcastsInDim S64x80 (![] : Fin 0 → Fin S64x80.rank)
  reducesTo_S64x80_S_d0_1 : S64x80.ReducesTo [0, 1] S_

variable [Facts]

def fn {F : FTy → Type} [FloatOps F] (main_arg0 : FVec F S8x64x16384 .f32) (main_arg1 : FVec F S64x80 .f32) (main_arg2 : FVec F S64x80 .f32) : IVec S_ 1 :=
  let main_v0 : FVec F S8x64x16384 .f32 := Host.absf main_arg0
  let main_cst : FVec F S_ .f32 := constant S_ .f32 0x7F800000#32
  let main_v1 : FVec F S8x64x16384 .f32 := broadcastInDim S8x64x16384 ![] bcast_S_S8x64x16384 main_cst
  let main_v2 : IVec S8x64x16384 1 := cmpf .olt main_v0 main_v1
  let main_c : IVec S_ 1 := constantI S_ 1 1#1
  let main_v3 : IVec S_ 1 := (fun x v => Host.reduce IntOp.andi x v reducesTo_S8x64x16384_S_d0_1_2 h_S_) main_v2 main_c
  let main_v4 : FVec F S64x80 .f32 := Host.absf main_arg1
  let main_cst_0 : FVec F S_ .f32 := constant S_ .f32 0x7F800000#32
  let main_v5 : FVec F S64x80 .f32 := broadcastInDim S64x80 ![] bcast_S_S64x80 main_cst_0
  let main_v6 : IVec S64x80 1 := cmpf .olt main_v4 main_v5
  let main_c_1 : IVec S_ 1 := constantI S_ 1 1#1
  let main_v7 : IVec S_ 1 := (fun x v => Host.reduce IntOp.andi x v reducesTo_S64x80_S_d0_1 h_S_) main_v6 main_c_1
  let main_v8 : IVec S_ 1 := andi main_v3 main_v7
  let main_v9 : FVec F S64x80 .f32 := Host.absf main_arg2
  let main_cst_2 : FVec F S_ .f32 := constant S_ .f32 0x7F800000#32
  let main_v10 : FVec F S64x80 .f32 := broadcastInDim S64x80 ![] bcast_S_S64x80 main_cst_2
  let main_v11 : IVec S64x80 1 := cmpf .olt main_v9 main_v10
  let main_c_3 : IVec S_ 1 := constantI S_ 1 1#1
  let main_v12 : IVec S_ 1 := (fun x v => Host.reduce IntOp.andi x v reducesTo_S64x80_S_d0_1 h_S_) main_v11 main_c_3
  let main_v13 : IVec S_ 1 := andi main_v8 main_v12
  main_v13
-- ==== Kernel.lean ====
abbrev S8x64x16384 : Shape := ⟨3, ![8, 64, 16384]⟩
abbrev S64x80 : Shape := ⟨2, ![64, 80]⟩
abbrev S80x64 : Shape := ⟨2, ![80, 64]⟩
abbrev S_ : Shape := ⟨0, ![]⟩
abbrev S80 : Shape := ⟨1, ![80]⟩
abbrev S80x1 : Shape := ⟨2, ![80, 1]⟩
abbrev S8x80x16384 : Shape := ⟨3, ![8, 80, 16384]⟩
abbrev S1x64x2048 : Shape := ⟨3, ![1, 64, 2048]⟩
abbrev S1x80x2048 : Shape := ⟨3, ![1, 80, 2048]⟩
abbrev S64x2048 : Shape := ⟨2, ![64, 2048]⟩
abbrev S80x2048 : Shape := ⟨2, ![80, 2048]⟩

abbrev nBuf : Space → Nat
  | .hbm => 12
  | .vmem => 7
  | .smem => 0
  | _ => 0

abbrev bufTy : (tb : Table) → Fin (tcTables nBuf tb) → BufTy
  | .hbm, ⟨0, _⟩ => ⟨S8x64x16384, .f32⟩
  | .hbm, ⟨1, _⟩ => ⟨S64x80, .f32⟩
  | .hbm, ⟨2, _⟩ => ⟨S64x80, .f32⟩
  | .hbm, ⟨3, _⟩ => ⟨S80x64, .f32⟩
  | .hbm, ⟨4, _⟩ => ⟨S64x80, .f32⟩
  | .hbm, ⟨5, _⟩ => ⟨S80x64, .f32⟩
  | .hbm, ⟨6, _⟩ => ⟨S64x80, .f32⟩
  | .hbm, ⟨7, _⟩ => ⟨S64x80, .f32⟩
  | .hbm, ⟨8, _⟩ => ⟨S_, .f32⟩
  | .hbm, ⟨9, _⟩ => ⟨S80, .f32⟩
  | .hbm, ⟨10, _⟩ => ⟨S80x1, .f32⟩
  | .hbm, ⟨11, _⟩ => ⟨S8x80x16384, .f32⟩
  | .local _ .vmem, ⟨0, _⟩ => ⟨S1x64x2048, .f32⟩
  | .local _ .vmem, ⟨1, _⟩ => ⟨S1x64x2048, .f32⟩
  | .local _ .vmem, ⟨2, _⟩ => ⟨S80x64, .f32⟩
  | .local _ .vmem, ⟨3, _⟩ => ⟨S80x64, .f32⟩
  | .local _ .vmem, ⟨4, _⟩ => ⟨S80x1, .f32⟩
  | .local _ .vmem, ⟨5, _⟩ => ⟨S1x80x2048, .f32⟩
  | .local _ .vmem, ⟨6, _⟩ => ⟨S1x80x2048, .f32⟩
  | _, _ => ⟨S8x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S80x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S80x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S80x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x80x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S64x80_S80x64_1_0 : S64x80.Transposes [1, 0] S80x64
  reducesTo_S64x80_S80_d0 : S64x80.ReducesTo [0] S80
  h_S_ : 0 < S_.numel
  shapeCasts_S80_S80x1 : S80.ShapeCasts S80x1
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S80x64_S80x64_0_0 : ∀ a, (![0, 0] : Fin 2 → Nat) a + S80x64.size a ≤ S80x64.size a
  h_S80x64 : 0 < S80x64.numel
  shapeCasts_S80x64_S80x64 : S80x64.ShapeCasts S80x64
  inb_S80x1_S80x1_0_0 : ∀ a, (![0, 0] : Fin 2 → Nat) a + S80x1.size a ≤ S80x1.size a
  h_S80x1 : 0 < S80x1.numel
  shapeCasts_S80x1_S80x1 : S80x1.ShapeCasts S80x1
  broadcasts_S80x1_S80x2048 : S80x1.Broadcasts S80x2048
  inb_S1x80x2048_S1x80x2048_0_0_0 : ∀ a, (![0, 0, 0] : Fin 3 → Nat) a + S1x80x2048.size a ≤ S1x80x2048.size a
  h_S1x80x2048 : 0 < S1x80x2048.numel
  shapeCasts_S1x80x2048_S80x2048 : S1x80x2048.ShapeCasts S80x2048
  shapeCasts_S80x2048_S1x80x2048 : S80x2048.ShapeCasts S1x80x2048
  dot_S80x64_S64x2048_S80x2048_1_0_0_1_n_n_wf : DotDims.WF S80x64 S64x2048 S80x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S8x64x16384.size a
  hwx0_0 : ∀ i : grid0.Coords, EltTy.bits .f32 = 32 ∨ (Rect.block (s := S8x64x16384) S1x64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x64.size a ≤ S80x64.size a
  hwx0_1 : ∀ i : grid0.Coords, EltTy.bits .f32 = 32 ∨ (Rect.block (s := S80x64) S80x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S80x64.size a ≤ S80x64.size a
  hwx0_2 : ∀ i : grid0.Coords, EltTy.bits .f32 = 32 ∨ (Rect.block (s := S80x64) S80x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x1.size a ≤ S80x1.size a
  hwx0_3 : ∀ i : grid0.Coords, EltTy.bits .f32 = 32 ∨ (Rect.block (s := S80x1) S80x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x80x2048.size a ≤ S8x80x16384.size a
  hwx0_4 : ∀ i : grid0.Coords, EltTy.bits .f32 = 32 ∨ (Rect.block (s := S8x80x16384) S1x80x2048.size (cc0_transform_4 i) (hinb0_4 i)).WholeWords (EltTy.packing .f32)

variable [Facts₀]

def dot_S80x64_S64x2048_S80x2048_1_0_0_1_n_n : DotDims S80x64 S64x2048 S80x2048 where
  lhsContracting := [1]
  rhsContracting := [0]
  lhsNonContracting := [0]
  rhsNonContracting := [1]
  lhsBatch := []
  rhsBatch := []
  wf := dot_S80x64_S64x2048_S80x2048_1_0_0_1_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S80x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S80x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S80x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x80x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x16384 : Shape := ⟨3, ![8, 64, 16384]⟩
abbrev S64x80 : Shape := ⟨2, ![64, 80]⟩
abbrev S8x16384x64 : Shape := ⟨3, ![8, 16384, 64]⟩
abbrev S131072x64 : Shape := ⟨2, ![131072, 64]⟩
abbrev S_ : Shape := ⟨0, ![]⟩
abbrev S80 : Shape := ⟨1, ![80]⟩
abbrev S131072x80 : Shape := ⟨2, ![131072, 80]⟩
abbrev S1x80 : Shape := ⟨2, ![1, 80]⟩
abbrev S8x16384x80 : Shape := ⟨3, ![8, 16384, 80]⟩
abbrev S8x80x16384 : Shape := ⟨3, ![8, 80, 16384]⟩

abbrev nBuf : Space → Nat
  | .hbm => 27
  | .vmem => 0
  | .smem => 0
  | _ => 0

abbrev bufTy : (tb : Table) → Fin (tcTables nBuf tb) → BufTy
  | .hbm, ⟨0, _⟩ => ⟨S8x64x16384, .f32⟩
  | .hbm, ⟨1, _⟩ => ⟨S64x80, .f32⟩
  | .hbm, ⟨2, _⟩ => ⟨S64x80, .f32⟩
  | .hbm, ⟨3, _⟩ => ⟨S8x16384x64, .f32⟩
  | .hbm, ⟨4, _⟩ => ⟨S131072x64, .f32⟩
  | .hbm, ⟨5, _⟩ => ⟨S64x80, .f32⟩
  | .hbm, ⟨6, _⟩ => ⟨S64x80, .f32⟩
  | .hbm, ⟨7, _⟩ => ⟨S_, .f32⟩
  | .hbm, ⟨8, _⟩ => ⟨S80, .f32⟩
  | .hbm, ⟨9, _⟩ => ⟨S131072x64, .f32⟩
  | .hbm, ⟨10, _⟩ => ⟨S131072x80, .f32⟩
  | .hbm, ⟨11, _⟩ => ⟨S64x80, .f32⟩
  | .hbm, ⟨12, _⟩ => ⟨S131072x80, .f32⟩
  | .hbm, ⟨13, _⟩ => ⟨S_, .f32⟩
  | .hbm, ⟨14, _⟩ => ⟨S131072x80, .f32⟩
  | .hbm, ⟨15, _⟩ => ⟨S131072x80, .f32⟩
  | .hbm, ⟨16, _⟩ => ⟨S131072x80, .f32⟩
  | .hbm, ⟨17, _⟩ => ⟨S1x80, .f32⟩
  | .hbm, ⟨18, _⟩ => ⟨S131072x80, .f32⟩
  | .hbm, ⟨19, _⟩ => ⟨S131072x80, .f32⟩
  | .hbm, ⟨20, _⟩ => ⟨S131072x80, .f32⟩
  | .hbm, ⟨21, _⟩ => ⟨S131072x80, .f32⟩
  | .hbm, ⟨22, _⟩ => ⟨S_, .f32⟩
  | .hbm, ⟨23, _⟩ => ⟨S131072x80, .f32⟩
  | .hbm, ⟨24, _⟩ => ⟨S131072x80, .f32⟩
  | .hbm, ⟨25, _⟩ => ⟨S8x16384x80, .f32⟩
  | .hbm, ⟨26, _⟩ => ⟨S8x80x16384, .f32⟩
  | _, _ => ⟨S8x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  transposes_S8x64x16384_S8x16384x64_0_2_1 : S8x64x16384.Transposes [0, 2, 1] S8x16384x64
  shapeCasts_S8x16384x64_S131072x64 : S8x16384x64.ShapeCasts S131072x64
  reducesTo_S64x80_S80_d0 : S64x80.ReducesTo [0] S80
  h_S_ : 0 < S_.numel
  bcast_S_S131072x80 : S_.BroadcastsInDim S131072x80 (![] : Fin 0 → Fin S131072x80.rank)
  bcast_S80_S1x80_1 : S80.BroadcastsInDim S1x80 (![1] : Fin 1 → Fin S1x80.rank)
  bcast_S1x80_S131072x80_0_1 : S1x80.BroadcastsInDim S131072x80 (![0, 1] : Fin 2 → Fin S131072x80.rank)
  shapeCasts_S131072x80_S8x16384x80 : S131072x80.ShapeCasts S8x16384x80
  transposes_S8x16384x80_S8x80x16384_0_2_1 : S8x16384x80.Transposes [0, 2, 1] S8x80x16384
  dot_S131072x64_S64x80_S131072x80_1_0_0_1_n_n_wf : DotDims.WF S131072x64 S64x80 S131072x80 [1] [0] [0] [1] [] []

variable [Facts₀]

def dot_S131072x64_S64x80_S131072x80_1_0_0_1_n_n : DotDims S131072x64 S64x80 S131072x80 where
  lhsContracting := [1]
  rhsContracting := [0]
  lhsNonContracting := [0]
  rhsNonContracting := [1]
  lhsBatch := []
  rhsBatch := []
  wf := dot_S131072x64_S64x80_S131072x80_1_0_0_1_n_n_wf

class Facts : Prop extends Facts₀ where

variable [Facts]
-- ==== Proof.Spec.lean ====
/-
  The value both programs compute, as ONE function of the three argument arrays.

  For a sample `(n, t)` (image `n`, position `t`), a class `k` and features `d < 64`, write `x d = x[n, d, t]`,
  `λ d = lamda[d, k]`, `c d = c[d, k]`. The weighted squared distance `∑ d, λ d · (x d − c d)²` is computed in
  its expanded form, three sums over `d`:

      dist = (∑ d, (x d · x d) · λ d)  −  2 · (∑ d, x d · (λ d · c d))  +  ∑ d, (λ d · c d) · c d

  and the result is the membership `max (exp (−dist)) ε` with `ε` the f32 word `0x358637BD`. The constants `2` and
  `ε` stay the values of their words: the same words stand on both sides and are never evaluated.

  One side forms each product of the first two sums with the factors in the other order (`λ d · (x d · x d)`,
  `(λ d · c d) · x d`) and negates by subtracting from zero; on the extended reals multiplication is commutative
  and `0 − y = −y`, at the infinities too, so no finiteness of the inputs is used (`neg_dist_eq`).
-/
import Idealize.ShloMosaic.PureOps.Ideal
import Idealize.ShloMosaic.PureOps.Ideal.Laws
import Idealize.ShloMosaic.Lib.ValueIdx

noncomputable section

namespace Cert.Membership

open Idealize.ShloMosaic Idealize.ShloMosaic.ValueIdx

/-- Indices of `x : f32[8, 64, 16384]`, of `c`, `lamda : f32[64, 80]` and of the result `f32[8, 80, 16384]`. -/
abbrev XIdx : Type := (⟨3, ![8, 64, 16384]⟩ : Shape).Idx
abbrev PIdx : Type := (⟨2, ![64, 80]⟩ : Shape).Idx
abbrev OIdx : Type := (⟨3, ![8, 80, 16384]⟩ : Shape).Idx

/-- The factor of the cross term: the f32 word of `2.0`. -/
abbrev two : EReal := Ideal.ofBits .f32 0x40000000#32
/-- The lower clip: the f32 word nearest `1e-6`. -/
abbrev clip : EReal := Ideal.ofBits .f32 0x358637BD#32

/-- The expanded weighted squared distance of sample `(n, t)` to class `k`. -/
def dist (x : XIdx → EReal) (c lam : PIdx → EReal) (n : Fin 8) (k : Fin 80) (t : Fin 16384) : EReal :=
  (∑ d : Fin 64, (x (ix3 n d t) * x (ix3 n d t)) * lam (ix2 d k))
    - two * (∑ d : Fin 64, x (ix3 n d t) * (lam (ix2 d k) * c (ix2 d k)))
    + ∑ d : Fin 64, (lam (ix2 d k) * c (ix2 d k)) * c (ix2 d k)

/-- The membership array: `max (exp (−dist)) ε` at `(n, k, t)`. -/
def G (x : XIdx → EReal) (c lam : PIdx → EReal) : OIdx → EReal :=
  fun i => max (Ideal.exp (-(dist x c lam (i 0) (i 1) (i 2)))) clip

/-- The other arrangement: the products of the first two sums commuted, the sign by subtraction from zero. -/
theorem neg_dist_eq (x : XIdx → EReal) (c lam : PIdx → EReal) (n : Fin 8) (k : Fin 80) (t : Fin 16384) :
    0 - ((∑ d : Fin 64, lam (ix2 d k) * (x (ix3 n d t) * x (ix3 n d t)))
          - two * (∑ d : Fin 64, (lam (ix2 d k) * c (ix2 d k)) * x (ix3 n d t))
          + ∑ d : Fin 64, (lam (ix2 d k) * c (ix2 d k)) * c (ix2 d k))
      = -(dist x c lam n k t) := by
  unfold dist
  rw [zero_sub]
  have e1 : (∑ d : Fin 64, lam (ix2 d k) * (x (ix3 n d t) * x (ix3 n d t)))
      = ∑ d : Fin 64, (x (ix3 n d t) * x (ix3 n d t)) * lam (ix2 d k) :=
    Finset.sum_congr rfl fun d _ => mul_comm _ _
  have e2 : (∑ d : Fin 64, (lam (ix2 d k) * c (ix2 d k)) * x (ix3 n d t))
      = ∑ d : Fin 64, x (ix3 n d t) * (lam (ix2 d k) * c (ix2 d k)) :=
    Finset.sum_congr rfl fun d _ => mul_comm _ _
  rw [e1, e2]

end Cert.Membership

end
-- ==== Proof.KernelPayload.lean ====
/-
  The kernel body's stored value, read at an index.

  At a grid point the body holds a block `xb : [1, 64, 2048]` of `x` (one image, all 64 features, 2048
  positions), the two `[80, 64]` parameter matrices `a` (`λ` transposed) and `b` (`λ · c` transposed) and
  the column `s : [80, 1]` of the third sum. It stores, at `(0, k, p)`,

      max (exp (0 − ((∑ d, a[k, d] · (xb[0, d, p] · xb[0, d, p])) − 2 · (∑ d, b[k, d] · xb[0, d, p]) + s[k, 0]))) ε :

  each matrix product into a zero accumulator is, on the extended reals, the plain sum over the contracted
  feature axis; the casts only drop or add the leading unit axis; the column is broadcast along positions.
-/
import proofs.«167870_j43525198577708_1_alg».proof.Proof.Gen.KernelIdeal.Skeleton
import proofs.«167870_j43525198577708_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx Cert.Membership

/-! ## The matrix product `[80, 64] × [64, 2048]` at an index -/

theorem lhs_axis0 (i : S80x2048.Idx) (q : dot_S80x64_S64x2048_S80x2048_1_0_0_1_n_n.contr.Idx) :
    (dot_S80x64_S64x2048_S80x2048_1_0_0_1_n_n.lhsIdx i q 0).val = (i 0).val := by
  unfold DotDims.lhsIdx
  rw [dif_neg (show ¬(0 : Fin S80x64.rank) ∈ dot_S80x64_S64x2048_S80x2048_1_0_0_1_n_n.lhsBatch by decide),
    dif_pos (show (0 : Fin S80x64.rank) ∈ dot_S80x64_S64x2048_S80x2048_1_0_0_1_n_n.lhsNonContracting by decide)]
  rfl
theorem lhs_axis1 (i : S80x2048.Idx) (q : dot_S80x64_S64x2048_S80x2048_1_0_0_1_n_n.contr.Idx) :
    (dot_S80x64_S64x2048_S80x2048_1_0_0_1_n_n.lhsIdx i q 1).val = (q ⟨0, by decide⟩).val :=
  dot_S80x64_S64x2048_S80x2048_1_0_0_1_n_n.lhsIdx_val_of_single rfl i q
theorem rhs_axis0 (i : S80x2048.Idx) (q : dot_S80x64_S64x2048_S80x2048_1_0_0_1_n_n.contr.Idx) :
    (dot_S80x64_S64x2048_S80x2048_1_0_0_1_n_n.rhsIdx i q 0).val = (q ⟨0, by decide⟩).val :=
  dot_S80x64_S64x2048_S80x2048_1_0_0_1_n_n.rhsIdx_val_of_single rfl i q
theorem rhs_axis1 (i : S80x2048.Idx) (q : dot_S80x64_S64x2048_S80x2048_1_0_0_1_n_n.contr.Idx) :
    (dot_S80x64_S64x2048_S80x2048_1_0_0_1_n_n.rhsIdx i q 1).val = (i 1).val := by
  unfold DotDims.rhsIdx
  rw [dif_neg (show ¬(1 : Fin S64x2048.rank) ∈ dot_S80x64_S64x2048_S80x2048_1_0_0_1_n_n.rhsBatch by decide),
    dif_pos (show (1 : Fin S64x2048.rank) ∈ dot_S80x64_S64x2048_S80x2048_1_0_0_1_n_n.rhsNonContracting by decide)]
  rfl

/-- Into the zero accumulator, entry `(k, p)` of the product is `∑ d, L[k, d] · R[d, p]`. -/
theorem matmul_at (L : FVec Ideal S80x64 .f32) (R : FVec Ideal S64x2048 .f32) (k : Fin 80) (p : Fin 2048) :
    matmul dot_S80x64_S64x2048_S80x2048_1_0_0_1_n_n none L R (constant S80x2048 .f32 0x00000000#32) (ix2 k p)
      = ∑ d : Fin 64, L (ix2 k d) * R (ix2 d p) := by
  simp only [matmul]
  rw [Ideal.matmul_constant_zero_apply,
    ← Equiv.sum_comp (contrEquiv1 dot_S80x64_S64x2048_S80x2048_1_0_0_1_n_n 64 rfl rfl).symm]
  refine Finset.sum_congr rfl fun d _ => ?_
  have hd := contrEquiv1_symm_val dot_S80x64_S64x2048_S80x2048_1_0_0_1_n_n 64 rfl rfl d
  have el : dot_S80x64_S64x2048_S80x2048_1_0_0_1_n_n.lhsIdx (ix2 k p)
      ((contrEquiv1 dot_S80x64_S64x2048_S80x2048_1_0_0_1_n_n 64 rfl rfl).symm d) = ix2 k d :=
    funext fun a => Fin.ext (by
      match a with
      | ⟨0, _⟩ => exact lhs_axis0 _ _
      | ⟨1, _⟩ => exact (lhs_axis1 _ _).trans hd)
  have er : dot_S80x64_S64x2048_S80x2048_1_0_0_1_n_n.rhsIdx (ix2 k p)
      ((contrEquiv1 dot_S80x64_S64x2048_S80x2048_1_0_0_1_n_n 64 rfl rfl).symm d) = ix2 d p :=
    funext fun a => Fin.ext (by
      match a with
      | ⟨0, _⟩ => exact (rhs_axis0 _ _).trans hd
      | ⟨1, _⟩ => exact rhs_axis1 _ _)
  rw [el, er]

/-! ## The layout steps at an index -/

/-- Dropping the block's leading unit axis: `(d, p)` reads `(0, d, p)`. -/
theorem drop_unit_at (v : FVec Ideal S1x64x2048 .f32) (d : Fin 64) (p : Fin 2048) :
    shapeCast S64x2048 v shapeCasts_S1x64x2048_S64x2048 (ix2 d p) = v (ix3 0 d p) :=
  shapeCast_apply v shapeCasts_S1x64x2048_S64x2048 (ix2 d p) (ix3 0 d p)
    (by rewrite [Shape.rowMajor_val_three, Shape.rowMajor_val_two]
        show (0 * 64 + d.val) * 2048 + p.val = d.val * 2048 + p.val
        omega)

/-- Adding it back for the store: `(0, k, p)` reads `(k, p)`. -/
theorem add_unit_at (v : FVec Ideal S80x2048 .f32) (k : Fin 80) (p : Fin 2048) :
    shapeCast S1x80x2048 v shapeCasts_S80x2048_S1x80x2048 (ix3 0 k p) = v (ix2 k p) :=
  shapeCast_apply v shapeCasts_S80x2048_S1x80x2048 (ix3 0 k p) (ix2 k p)
    (by rewrite [Shape.rowMajor_val_two, Shape.rowMajor_val_three]
        show k.val * 2048 + p.val = (0 * 80 + k.val) * 2048 + p.val
        omega)

/-- The column broadcast along positions: `(k, p)` reads `(k, 0)`. -/
theorem column_at (v : FVec Ideal S80x1 .f32) (k : Fin 80) (p : Fin 2048) :
    broadcastTo S80x2048 v broadcasts_S80x1_S80x2048 (ix2 k p) = v (ix2 k 0) :=
  broadcastTo_apply v broadcasts_S80x1_S80x2048 (ix2 k p) (ix2 k 0) (fun a => match a with
    | ⟨0, _⟩ => by show k.val = if (80 : Nat) = 1 then 0 else k.val; rw [if_neg (by decide)]
    | ⟨1, _⟩ => by show 0 = if (1 : Nat) = 1 then 0 else p.val; rw [if_pos rfl])

theorem exp_at {s : Shape} (v : FVec Ideal s .f32) (i : s.Idx) : Idealize.ShloMosaic.exp v i = Ideal.exp (v i) := rfl

theorem scalar_word (w : BitVec 32) : Scalar.ofBits (F := Ideal) .f32 w = Ideal.ofBits .f32 w := rfl

/-! ## The payload -/

/-- What the body stores at `(0, k, p)`, from the four loaded blocks. -/
theorem pay_at (xb : Vec Ideal S1x64x2048 .f32) (a b : Vec Ideal S80x64 .f32) (s : Vec Ideal S80x1 .f32)
    (k : Fin 80) (p : Fin 2048) :
    k0_pay1 (F := Ideal) xb a b s (ix3 0 k p)
      = max (Ideal.exp (0 - ((∑ d : Fin 64, a (ix2 k d) * (xb (ix3 0 d p) * xb (ix3 0 d p)))
            - two * (∑ d : Fin 64, b (ix2 k d) * xb (ix3 0 d p)) + s (ix2 k 0)))) clip := by
  unfold k0_pay1
  rw [add_unit_at]
  simp only [maximumf_apply, exp_at, subf_apply, addf_apply, mulf_apply, broadcast_apply, matmul_at,
    shapeCast_self, column_at, drop_unit_at, scalar_word, Ideal.ofBits_zero_f32]

end Cert.KernelIdeal.Body

end
-- ==== Proof.KernelParams.lean ====
/-
  What the kernel's three parameter windows hold when the region starts.

  Before the launch the program prepares, from `c` and `lamda` (both `[64, 80]`, feature `d` by class `k`):
  `λ` transposed, `λ · c` transposed (both `[80, 64]`), and the column `[80, 1]` of the sums
  `∑ d, (λ[d, k] · c[d, k]) · c[d, k]` (a column sum from the zero word, reshaped). Read at an index:

      (λᵀ)[k, d] = λ[d, k]      ((λ·c)ᵀ)[k, d] = λ[d, k] · c[d, k]      col[k, 0] = ∑ d, (λ[d, k] · c[d, k]) · c[d, k].
-/
import proofs.«167870_j43525198577708_1_alg».proof.Proof.Gen.KernelIdeal.Frame
import proofs.«167870_j43525198577708_1_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Params

open Cert.KernelIdeal Cert.KernelIdeal.Gen
open Idealize.ShloMosaic Idealize.ShloMosaic.TcCoe Idealize.ShloMosaic.ValueIdx Idealize.SL.Sem Cert.Membership

variable (m : (ℓ : Loc nD τ sig) → Buf (Elt Ideal) ℓ)

/-- The three argument arrays as launched, at their literal types. -/
abbrev xArr (c : Dev nD) : FVec Ideal S8x64x16384 .f32 := m ((c : Thread nD τ).loc main_arg0)
abbrev cArr (c : Dev nD) : FVec Ideal S64x80 .f32 := m ((c : Thread nD τ).loc main_arg1)
abbrev lamArr (c : Dev nD) : FVec Ideal S64x80 .f32 := m ((c : Thread nD τ).loc main_arg2)

/-- The region finds `x` as launched. -/
theorem x_eq (c : Dev nD) : (V m c main_arg0 : S8x64x16384.Idx → EReal) = xArr m c := V_main_arg0 m c

/-- `λ` transposed. -/
theorem lamT_eq (c : Dev nD) : (V m c main_v0 : S80x64.Idx → EReal)
    = transpose S80x64 [1, 0] (lamArr m c) transposes_S64x80_S80x64_1_0 := by
  dsimp only [V, hostOps0]; after_results <;> rfl

theorem lamT_at (c : Dev nD) (k : Fin 80) (d : Fin 64) :
    (V m c main_v0 : S80x64.Idx → EReal) (ix2 k d) = lamArr m c (ix2 d k) := by
  rw [lamT_eq]
  exact transpose_apply [1, 0] (lamArr m c) transposes_S64x80_S80x64_1_0 (ix2 k d) (ix2 d k) (fun b => match b with
    | ⟨0, _⟩ => rfl
    | ⟨1, _⟩ => rfl)

/-- `λ · c` transposed. -/
theorem lamcT_eq (c : Dev nD) : (V m c main_v2 : S80x64.Idx → EReal)
    = transpose S80x64 [1, 0] (mulf (lamArr m c) (cArr m c)) transposes_S64x80_S80x64_1_0 := by
  dsimp only [V, hostOps0]; after_results <;> rfl

theorem lamcT_at (c : Dev nD) (k : Fin 80) (d : Fin 64) :
    (V m c main_v2 : S80x64.Idx → EReal) (ix2 k d) = lamArr m c (ix2 d k) * cArr m c (ix2 d k) := by
  rw [lamcT_eq]
  exact transpose_apply [1, 0] (mulf (lamArr m c) (cArr m c)) transposes_S64x80_S80x64_1_0 (ix2 k d) (ix2 d k) (fun b => match b with
    | ⟨0, _⟩ => rfl
    | ⟨1, _⟩ => rfl)

/-- The column of third sums. -/
theorem col_eq (c : Dev nD) : (V m c main_v6 : S80x1.Idx → EReal)
    = shapeCast S80x1 (Host.reduceAdd (F := Ideal) (mulf (mulf (lamArr m c) (cArr m c)) (cArr m c))
        (constant (F := Ideal) S_ .f32 0x00000000#32) reducesTo_S64x80_S80_d0 h_S_) shapeCasts_S80_S80x1 := by
  dsimp only [V, hostOps0]; after_results <;> rfl

theorem col_at (c : Dev nD) (k : Fin 80) :
    (V m c main_v6 : S80x1.Idx → EReal) (ix2 k 0)
      = ∑ d : Fin 64, (lamArr m c (ix2 d k) * cArr m c (ix2 d k)) * cArr m c (ix2 d k) := by
  rw [col_eq]
  rw [shapeCast_apply _ shapeCasts_S80_S80x1 (ix2 k 0) (ix1 k)
    (by rewrite [Shape.rowMajor_val_one, Shape.rowMajor_val_two]
        show k.val = k.val * 1 + 0
        omega)]
  simp only [Host.reduceAdd, Ideal.hostReduceAdd_def]
  rw [Ideal.hostReduceAdd_single reducesTo_S64x80_S80_d0 (by decide)]
  show Ideal.ofBits .f32 0x00000000#32 + _ = _
  rw [Ideal.ofBits_zero_f32, zero_add]
  refine Finset.sum_congr rfl fun d _ => ?_
  exact congrArg (mulf (mulf (lamArr m c) (cArr m c)) (cArr m c))
    (funext fun a => Fin.ext (by match a with | ⟨0, _⟩ => rfl | ⟨1, _⟩ => rfl))

end Cert.KernelIdeal.Params

end
-- ==== Proof.KernelValue.lean ====
/-
  The kernel's result array is the membership array `G`.

  The grid is 8 images by 8 tiles of 2048 positions. At a point the kernel reads the tile `x[n, :, w·2048 …]`
  (all 64 features), the three whole parameter arrays (the same block at every point), and writes the tile
  `out[n, :, w·2048 …]` (all 80 classes). So position `(0, k, p)` of the output block is array index
  `(n, k, w·2048 + p)`, position `(0, d, p)` of the `x` block is `x[n, d, w·2048 + p]`, and the parameter blocks
  are read where they stand. With the body's stored value and the parameters' contents this is the other
  arrangement of `−dist` (`neg_dist_eq`), hence `G` there. The 64 output tiles are disjoint and fill the
  array (the tile of index `i` is `(i 0, i 2 / 2048)`), so after the run the whole array is `G`.
-/
import proofs.«167870_j43525198577708_1_alg».proof.Proof.Gen.KernelIdeal.Value
import proofs.«167870_j43525198577708_1_alg».proof.Proof.KernelPayload
import proofs.«167870_j43525198577708_1_alg».proof.Proof.KernelParams
import proofs.«167870_j43525198577708_1_alg».proof.Proof.Spec

set_option maxRecDepth 16384

noncomputable section

namespace Cert.KernelIdeal.Result

open Cert.KernelIdeal Cert.KernelIdeal.Gen Cert.KernelIdeal.Params Cert.KernelIdeal.Body
open Idealize.ShloMosaic Idealize.ShloMosaic.TcCoe Idealize.ShloMosaic.ValueIdx Idealize.SL.Sem Cert.Membership
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The block indices over the grid -/

/-- The output tile of a point: image index below 8, all classes, tile index below 8. -/
theorem out_index : ∀ t : Fin cfg0.N,
    win0_4.index t (0 : Fin 3) ≤ 7 ∧ win0_4.index t (1 : Fin 3) = 0 ∧ win0_4.index t (2 : Fin 3) ≤ 7 :=
  (by decide +kernel : ∀ t : Fin grid0.N, _)

/-- The `x` tile moves with the output tile; the parameter blocks stay at the origin. -/
theorem in_index : ∀ t : Fin cfg0.N,
    win0_0.index t (0 : Fin 3) = win0_4.index t (0 : Fin 3) ∧ win0_0.index t (1 : Fin 3) = 0
    ∧ win0_0.index t (2 : Fin 3) = win0_4.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every (image, tile) pair is some point's. -/
theorem out_onto : ∀ (q0 : Fin 8) (q2 : Fin 8), ∃ t : Fin cfg0.N, win0_4.index t = ![q0.val, 0, q2.val] :=
  (by decide +kernel : ∀ (q0 : Fin 8) (q2 : Fin 8), ∃ t : Fin grid0.N, win0_4.index t = ![q0.val, 0, q2.val])

/-- The image a point works on, -/
def img (t : Fin cfg0.N) : Fin 8 := ⟨win0_4.index t (0 : Fin 3), by have := (out_index t).1; omega⟩
/-- and the array position of position `p` of its tile. -/
def pos (t : Fin cfg0.N) (p : Fin 2048) : Fin 16384 :=
  ⟨win0_4.index t (2 : Fin 3) * 2048 + p.val, by have := (out_index t).2.2; have := p.isLt; omega⟩

/-! ## The blocks read at a position -/

/-- Position `(0, k, p)` of the output tile is array index `(n, k, w·2048 + p)`. -/
theorem out_emb (t : Fin cfg0.N) (k : Fin 80) (p : Fin 2048) :
    ((cfg0.win 4).blk t).view.emb (ix3 0 k p) = ix3 (img t) k (pos t p) := by
  obtain ⟨-, e1, -⟩ := out_index t
  funext a; apply Fin.ext
  match a with
  | ⟨0, _⟩ => show win0_4.index t (0 : Fin 3) * 1 + 1 * 0 = win0_4.index t (0 : Fin 3); omega
  | ⟨1, _⟩ => show win0_4.index t (1 : Fin 3) * 80 + 1 * k.val = k.val; omega
  | ⟨2, _⟩ => show win0_4.index t (2 : Fin 3) * 2048 + 1 * p.val = win0_4.index t (2 : Fin 3) * 2048 + p.val; omega

/-- Position `(0, d, p)` of the `x` tile is `x[n, d, w·2048 + p]`. -/
theorem xblk_at (c : Dev nD) (t : Fin cfg0.N) (d : Fin 64) (p : Fin 2048) :
    iblk m c 0 t (ix3 0 d p) = xArr m c (ix3 (img t) d (pos t p)) := by
  obtain ⟨e0, e1, e2, -⟩ := in_index t
  show (V m c main_arg0 : S8x64x16384.Idx → EReal) (((cfg0.win 0).blk t).view.emb (ix3 0 d p)) = _
  rw [x_eq]
  refine congrArg (xArr m c) (funext fun a => Fin.ext ?_)
  match a with
  | ⟨0, _⟩ => show win0_0.index t (0 : Fin 3) * 1 + 1 * 0 = win0_4.index t (0 : Fin 3); omega
  | ⟨1, _⟩ => show win0_0.index t (1 : Fin 3) * 64 + 1 * d.val = d.val; omega
  | ⟨2, _⟩ => show win0_0.index t (2 : Fin 3) * 2048 + 1 * p.val = win0_4.index t (2 : Fin 3) * 2048 + p.val; omega

/-- The first parameter block at `(k, d)` is `λ[d, k]`. -/
theorem ablk_at (c : Dev nD) (t : Fin cfg0.N) (k : Fin 80) (d : Fin 64) :
    iblk m c 1 t (ix2 k d) = lamArr m c (ix2 d k) := by
  obtain ⟨-, -, -, e0, e1, -⟩ := in_index t
  show (V m c main_v0 : S80x64.Idx → EReal) (((cfg0.win 1).blk t).view.emb (ix2 k d)) = _
  have e : ((cfg0.win 1).blk t).view.emb (ix2 k d) = ix2 k d := funext fun a => Fin.ext (by
    match a with
    | ⟨0, _⟩ => show win0_1.index t (0 : Fin 2) * 80 + 1 * k.val = k.val; omega
    | ⟨1, _⟩ => show win0_1.index t (1 : Fin 2) * 64 + 1 * d.val = d.val; omega)
  rw [e]
  exact lamT_at m c k d

/-- The second at `(k, d)` is `λ[d, k] · c[d, k]`. -/
theorem bblk_at (c : Dev nD) (t : Fin cfg0.N) (k : Fin 80) (d : Fin 64) :
    iblk m c 2 t (ix2 k d) = lamArr m c (ix2 d k) * cArr m c (ix2 d k) := by
  obtain ⟨-, -, -, -, -, e0, e1, -⟩ := in_index t
  show (V m c main_v2 : S80x64.Idx → EReal) (((cfg0.win 2).blk t).view.emb (ix2 k d)) = _
  have e : ((cfg0.win 2).blk t).view.emb (ix2 k d) = ix2 k d := funext fun a => Fin.ext (by
    match a with
    | ⟨0, _⟩ => show win0_2.index t (0 : Fin 2) * 80 + 1 * k.val = k.val; omega
    | ⟨1, _⟩ => show win0_2.index t (1 : Fin 2) * 64 + 1 * d.val = d.val; omega)
  rw [e]
  exact lamcT_at m c k d

/-- The column block at `(k, 0)` is the third sum. -/
theorem sblk_at (c : Dev nD) (t : Fin cfg0.N) (k : Fin 80) :
    iblk m c 3 t (ix2 k 0) = ∑ d : Fin 64, (lamArr m c (ix2 d k) * cArr m c (ix2 d k)) * cArr m c (ix2 d k) := by
  obtain ⟨-, -, -, -, -, -, -, e0, e1⟩ := in_index t
  show (V m c main_v6 : S80x1.Idx → EReal) (((cfg0.win 3).blk t).view.emb (ix2 k 0)) = _
  have e : ((cfg0.win 3).blk t).view.emb (ix2 k 0) = ix2 k 0 := funext fun a => Fin.ext (by
    match a with
    | ⟨0, _⟩ => show win0_3.index t (0 : Fin 2) * 80 + 1 * k.val = k.val; omega
    | ⟨1, _⟩ => show win0_3.index t (1 : Fin 2) * 1 + 1 * 0 = 0; omega)
  rw [e]
  exact col_at m c k

/-! ## What a point writes back -/

/-- The body's stored value at `(0, k, p)` is `G` at the array index of that position. -/
theorem point_eq (c : Dev nD) (t : Fin cfg0.N) (k : Fin 80) (p : Fin 2048) :
    k0_pay1 (F := Ideal) (iblk m c 0 t) (iblk m c 1 t) (iblk m c 2 t) (iblk m c 3 t) (ix3 0 k p)
      = G (xArr m c) (cArr m c) (lamArr m c) (((cfg0.win 4).blk t).view.emb (ix3 0 k p)) := by
  rw [out_emb]
  refine (pay_at (iblk m c 0 t) (iblk m c 1 t) (iblk m c 2 t) (iblk m c 3 t) k p).trans ?_
  simp only [xblk_at m c t, ablk_at m c t, bblk_at m c t, sblk_at m c t]
  show _ = max (Ideal.exp (-(dist (xArr m c) (cArr m c) (lamArr m c) (img t) k (pos t p)))) clip
  rw [neg_dist_eq (xArr m c) (cArr m c) (lamArr m c) (img t) k (pos t p)]

/-- Point `t` writes back block `t` of `G`. -/
theorem flushed_eq (c : Dev nD) (t : Fin cfg0.N) :
    (dats m 0 c).flushed 4 t
      = ((cfg0.win 4).blk t).view.read (Elt Ideal) (G (xArr m c) (cArr m c) (lamArr m c)) := by
  rw [Value.flushed4]
  unfold out0_4
  rw [View.canon_unit_zero zeros3]
  simp only [View.ld_unit_zero (S := S1x64x2048) zeros3, View.ld_unit_zero (S := S80x64) zeros2,
    View.ld_unit_zero (S := S80x1) zeros2]
  funext j
  obtain ⟨j0, k, p, rfl⟩ : ∃ (j0 : Fin 1) (k : Fin 80) (p : Fin 2048), j = ix3 j0 k p := ⟨j 0, j 1, j 2, eq_ix3 j⟩
  obtain rfl : j0 = 0 := Subsingleton.elim _ _
  exact point_eq m c t k p

/-! ## The tiles fill the array -/

/-- An index is in point `t`'s tile iff each coordinate is in the tile's range on its axis. -/
theorem mem_tile (t : Fin cfg0.N) (i : S8x80x16384.Idx) :
    i ∈ ((cfg0.win 4).blk t).view.set ↔ ∀ a : Fin 3, win0_4.index t a * S1x80x2048.size a ≤ (i a).val
      ∧ (i a).val < win0_4.index t a * S1x80x2048.size a + S1x80x2048.size a := by
  show i ∈ ((View.whole main_v7).slice (win0_4.rect t)).set ↔ _
  rw [View.set_slice_whole, Rect.mem_set_unit]
  exact Iff.rfl

/-- Index `i` lies in the tile of image `i 0` and tile number `i 2 / 2048`. -/
theorem tiles_cover (i : S8x80x16384.Idx) :
    ∃ t : Fin cfg0.N, (cfg0.win 4).flush t = true ∧ i ∈ ((cfg0.win 4).blk t).view.set := by
  have hi0 : (i 0).val < 8 := (i 0).isLt
  have hi1 : (i 1).val < 80 := (i 1).isLt
  have hi2 : (i 2).val < 16384 := (i 2).isLt
  obtain ⟨t, ht⟩ := out_onto ⟨(i 0).val, hi0⟩ ⟨(i 2).val / 2048, by omega⟩
  have q0 : win0_4.index t (0 : Fin 3) = (i 0).val := congrFun ht 0
  have q1 : win0_4.index t (1 : Fin 3) = 0 := congrFun ht 1
  have q2 : win0_4.index t (2 : Fin 3) = (i 2).val / 2048 := congrFun ht 2
  refine ⟨t, flush0_4 t, ?_⟩
  rw [mem_tile]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 80 ≤ (i 1).val ∧ (i 1).val < win0_4.index t (1 : Fin 3) * 80 + 80
    omega
  | ⟨2, _⟩ =>
    show win0_4.index t (2 : Fin 3) * 2048 ≤ (i 2).val ∧ (i 2).val < win0_4.index t (2 : Fin 3) * 2048 + 2048
    omega

/-! ## The run -/

/-- After the run the result array is `G` of the argument arrays. -/
theorem final (c : Dev nD) : (dats m 0 c).arrAt 4 cfg0.N = G (xArr m c) (cArr m c) (lamArr m c) :=
  (dats m 0 c).arrAt_eq_of_cover 4 (G (xArr m c) (cArr m c) (lamArr m c)) (fun t _ => flushed_eq m c t) tiles_cover

/-- Every weakly fair execution ends with the result array at `G` of the arguments, the arguments unchanged. -/
theorem run : θ_run defs (onTc (τ := τ) (main (F := Ideal))) ⟨m, fun _ => 0, ρ⟩ fun r => ∀ c : Dev nD,
      r.2.mem ((c : Thread nD τ).loc main_v7) = G (xArr m c) (cArr m c) (lamArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.RefValue.lean ====
/-
  The reference's result is the membership array `G`.

  The reference lays `x` out as rows `r = n · 16384 + t` of 64 features (a transpose and a reshape), forms the
  three sums of the expanded distance by two matrix products over the feature axis and a column sum of
  `(λ · c) · c`, applies `max (exp (−·)) ε` and lays the `[131072, 80]` result back out as `[8, 80, 16384]`.
  Read at a result index `(n, k, t)`, every stage is its operand at an index built from `n`, `k`, `t` and the
  summation index `d`: the row `r` goes back to `(n, t)` by division by the literal extents.
-/
import proofs.«167870_j43525198577708_1_alg».proof.Proof.Gen.ReferenceIdeal.Read
import proofs.«167870_j43525198577708_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Membership

/-- Row `n · 16384 + t`, feature `d` of the re-laid `x` is `x[n, d, t]` (first product's left operand). -/
theorem x_at_sq (i : S8x80x16384.Idx) (d : Fin 64) :
    idx_main_v0 (idx_main_v1 (lidx_main_v6 (idx_main_v19 (idx_main_v20 i)) d)) = ix3 (i 0) d (i 2) := by
  have h0 : (i 0).val < 8 := (i 0).isLt
  have h1 : (i 1).val < 80 := (i 1).isLt
  have h2 : (i 2).val < 16384 := (i 2).isLt
  have hd : d.val < 64 := d.isLt
  funext a; apply Fin.ext
  match a with
  | ⟨0, _⟩ =>
    show ((((i 0).val * 16384 + (i 2).val) * 80 + (i 1).val) / 80 * 64 + d.val) / 1048576 = (i 0).val
    omega
  | ⟨1, _⟩ =>
    show ((((i 0).val * 16384 + (i 2).val) * 80 + (i 1).val) / 80 * 64 + d.val) % 64 = d.val
    omega
  | ⟨2, _⟩ =>
    show ((((i 0).val * 16384 + (i 2).val) * 80 + (i 1).val) / 80 * 64 + d.val) / 64 % 16384 = (i 2).val
    omega

/-- The same for the second product's left operand. -/
theorem x_at_cross (i : S8x80x16384.Idx) (d : Fin 64) :
    idx_main_v0 (idx_main_v1 (lidx_main_v8 (idx_main_v19 (idx_main_v20 i)) d)) = ix3 (i 0) d (i 2) := by
  have h0 : (i 0).val < 8 := (i 0).isLt
  have h1 : (i 1).val < 80 := (i 1).isLt
  have h2 : (i 2).val < 16384 := (i 2).isLt
  have hd : d.val < 64 := d.isLt
  funext a; apply Fin.ext
  match a with
  | ⟨0, _⟩ =>
    show ((((i 0).val * 16384 + (i 2).val) * 80 + (i 1).val) / 80 * 64 + d.val) / 1048576 = (i 0).val
    omega
  | ⟨1, _⟩ =>
    show ((((i 0).val * 16384 + (i 2).val) * 80 + (i 1).val) / 80 * 64 + d.val) % 64 = d.val
    omega
  | ⟨2, _⟩ =>
    show ((((i 0).val * 16384 + (i 2).val) * 80 + (i 1).val) / 80 * 64 + d.val) / 64 % 16384 = (i 2).val
    omega

/-- The right operands and the column sum are read at `(d, k)`. -/
theorem p_at_sq (i : S8x80x16384.Idx) (d : Fin 64) :
    ridx_main_v6 (idx_main_v19 (idx_main_v20 i)) d = ix2 d (i 1) := by
  have h0 : (i 0).val < 8 := (i 0).isLt
  have h1 : (i 1).val < 80 := (i 1).isLt
  have h2 : (i 2).val < 16384 := (i 2).isLt
  funext a; apply Fin.ext
  match a with
  | ⟨0, _⟩ => rfl
  | ⟨1, _⟩ =>
    show (((i 0).val * 16384 + (i 2).val) * 80 + (i 1).val) % 80 = (i 1).val
    omega

theorem p_at_cross (i : S8x80x16384.Idx) (d : Fin 64) :
    ridx_main_v8 (idx_main_v19 (idx_main_v20 i)) d = ix2 d (i 1) := by
  have h0 : (i 0).val < 8 := (i 0).isLt
  have h1 : (i 1).val < 80 := (i 1).isLt
  have h2 : (i 2).val < 16384 := (i 2).isLt
  funext a; apply Fin.ext
  match a with
  | ⟨0, _⟩ => rfl
  | ⟨1, _⟩ =>
    show (((i 0).val * 16384 + (i 2).val) * 80 + (i 1).val) % 80 = (i 1).val
    omega

theorem p_at_const (i : S8x80x16384.Idx) (d : Fin 64) :
    idx_main_v4 (idx_main_v12 (idx_main_v13 (idx_main_v19 (idx_main_v20 i)))) d = ix2 d (i 1) := by
  have h0 : (i 0).val < 8 := (i 0).isLt
  have h1 : (i 1).val < 80 := (i 1).isLt
  have h2 : (i 2).val < 16384 := (i 2).isLt
  funext a; apply Fin.ext
  match a with
  | ⟨0, _⟩ => rfl
  | ⟨1, _⟩ =>
    show (((i 0).val * 16384 + (i 2).val) * 80 + (i 1).val) % 80 = (i 1).val
    omega

/-- The reference's last stage is `G` of the arguments (`x0 = x`, `x1 = c`, `x2 = lamda`). -/
theorem result_eq (x0 : (⟨S8x64x16384, .f32⟩ : BufTy).Contents (Elt Ideal)) (x1 x2 : (⟨S64x80, .f32⟩ : BufTy).Contents (Elt Ideal)) :
    val_main_v20 (F := Ideal) x0 x1 x2 = G x0 x1 x2 := by
  funext i
  rw [val_main_v20_apply, val_main_v19_apply, val_main_v18_apply, val_main_v16_apply, val_main_v15_apply,
    val_main_v14_apply, val_main_v11_apply, val_main_v6_apply, val_main_v10_apply, val_main_v9_apply,
    val_main_cst_0_apply, val_main_v8_apply, val_main_v13_apply, val_main_v12_apply, val_main_v4_apply,
    val_main_cst_apply, val_main_v17_apply, val_main_cst_1_apply]
  simp only [val_main_v5_apply, val_main_v1_apply, val_main_v0_apply, val_main_v7_apply, val_main_v3_apply,
    val_main_v2_apply, x_at_sq, x_at_cross, p_at_sq, p_at_cross, p_at_const,
    Ideal.mulf_def, Ideal.subf_def, Ideal.addf_def, Ideal.hostNegf_def, Ideal.negf_def, Ideal.hostUnary_exp_def,
    Ideal.maximumf_def, Ideal.ofBits_def, Ideal.ofBits_zero_f32, zero_add]
  rfl

end Cert.ReferenceIdeal.RefValue

end
-- ==== Proof.lean ====
/-
  A fuzzy membership layer: for image `n`, position `t` and class `k`,

      out[n, k, t] = max (exp (−∑ d, λ[d, k] · (x[n, d, t] − c[d, k])²)) ε,

  with the squared distance expanded into three sums over the 64 features,
  `∑ d, λ·x² − 2 · ∑ d, (λ·c)·x + ∑ d, (λ·c)·c`, in both programs. The kernel tiles `x` by image and by 2048
  positions and forms the first two sums as matrix products of the transposed parameter matrices with the tile;
  the reference lays `x` out as 131072 rows of features and multiplies from the other side. On the extended
  reals the two differ only by the order of the factors inside each product and by `0 − y` against `−y`
  (Proof/Spec.lean), so the results agree at every index whatever the inputs: the precondition is not used.

  Proof/RefValue.lean reads the reference's run at an index and finds `G`; Proof/KernelPayload.lean,
  Proof/KernelParams.lean and Proof/KernelValue.lean read the kernel's (the body's stored value, the prepared
  parameter arrays, and the 64 tiles filling the result) and find the same `G`. The frames of the two kernel
  programs are their generated frames; the reference's frame is its run with the result dropped. No operation
  was rewritten by the idealization, so there is nothing to preserve.
-/
import proofs.«167870_j43525198577708_1_alg».proof.Defs
import proofs.«167870_j43525198577708_1_alg».proof.Proof.Gen.Kernel
import proofs.«167870_j43525198577708_1_alg».proof.Proof.Gen.Kernel.Skeleton
import proofs.«167870_j43525198577708_1_alg».proof.Proof.Gen.Kernel.Launch
import proofs.«167870_j43525198577708_1_alg».proof.Proof.Gen.Kernel.Points
import proofs.«167870_j43525198577708_1_alg».proof.Proof.Gen.Kernel.Frame
import proofs.«167870_j43525198577708_1_alg».proof.Proof.Gen.KernelIdeal
import proofs.«167870_j43525198577708_1_alg».proof.Proof.Gen.KernelIdeal.Skeleton
import proofs.«167870_j43525198577708_1_alg».proof.Proof.Gen.KernelIdeal.Launch
import proofs.«167870_j43525198577708_1_alg».proof.Proof.Gen.KernelIdeal.Points
import proofs.«167870_j43525198577708_1_alg».proof.Proof.Gen.KernelIdeal.Frame
import proofs.«167870_j43525198577708_1_alg».proof.Proof.Gen.ReferenceIdeal
import proofs.«167870_j43525198577708_1_alg».proof.Proof.Gen.Pre_finite_inputs
import proofs.«167870_j43525198577708_1_alg».proof.Proof.Gen.KernelIdeal.Value
import proofs.«167870_j43525198577708_1_alg».proof.Proof.Gen.ReferenceIdeal.Run
import proofs.«167870_j43525198577708_1_alg».proof.Proof.Gen.ReferenceIdeal.Read
import proofs.«167870_j43525198577708_1_alg».proof.Proof.KernelValue
import proofs.«167870_j43525198577708_1_alg».proof.Proof.RefValue
import Idealize.ShloMosaic.Adequacy
import Idealize.ShloMosaic.Init

noncomputable section

namespace Cert.Proof

open Idealize.ShloMosaic Idealize.ShloMosaic.TcCoe Idealize.SL.Sem Cert.Membership

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x`, `c` and `lamda`, both programs end with the membership array `G` of them. -/
theorem algebraic : Cert.algebraic_KernelIdeal_ReferenceIdeal := by
  intro m ρ m' ρ' _ hagree
  refine ⟨fun c => G (Cert.KernelIdeal.Params.xArr m c) (Cert.KernelIdeal.Params.cArr m c) (Cert.KernelIdeal.Params.lamArr m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
